-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x2048x2048 : Shape := ⟨4, ![2, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x1x2048x2048 : S_.BroadcastsInDim S2x1x2048x2048 (![] : Fin 0 → Fin S2x1x2048x2048.rank)
  reducesTo_S2x1x2048x2048_S_d0_1_2_3 : S2x1x2048x2048.ReducesTo [0, 1, 2, 3] S_

variable [Facts]

def fn_part1 {F : FTy → Type} [FloatOps F] (main_arg3 : FVec F S2x1x2048x2048 .f32) (main_v13 : IVec S_ 1) (main_v16 : IVec S2x1x2048x2048 1) : IVec S_ 1 :=
  let main_c_5 : IVec S_ 1 := constantI S_ 1 1#1
  let main_v17 : IVec S_ 1 := (fun x v => Host.reduce IntOp.andi x v reducesTo_S2x1x2048x2048_S_d0_1_2_3 h_S_) main_v16 main_c_5
  let main_v18 : IVec S_ 1 := andi main_v13 main_v17
  let main_cst_6 : FVec F S_ .f32 := constant S_ .f32 0x00000000#32
  let main_v19 : FVec F S2x1x2048x2048 .f32 := broadcastInDim S2x1x2048x2048 ![] bcast_S_S2x1x2048x2048 main_cst_6
  let main_v20 : IVec S2x1x2048x2048 1 := cmpf .oeq main_arg3 main_v19
  let main_cst_7 : FVec F S_ .f32 := constant S_ .f32 0x3F800000#32
  let main_v21 : FVec F S2x1x2048x2048 .f32 := broadcastInDim S2x1x2048x2048 ![] bcast_S_S2x1x2048x2048 main_cst_7
  let main_v22 : IVec S2x1x2048x2048 1 := cmpf .oeq main_arg3 main_v21
  let main_v23 : IVec S2x1x2048x2048 1 := ori main_v20 main_v22
  let main_c_8 : IVec S_ 1 := constantI S_ 1 1#1
  let main_v24 : IVec S_ 1 := (fun x v => Host.reduce IntOp.andi x v reducesTo_S2x1x2048x2048_S_d0_1_2_3 h_S_) main_v23 main_c_8
  let main_v25 : IVec S_ 1 := andi main_v18 main_v24
  main_v25

def fn {F : FTy → Type} [FloatOps F] (main_arg0 : FVec F S2x16x2048x64 .f32) (main_arg1 : FVec F S2x16x2048x64 .f32) (main_arg2 : FVec F S2x16x2048x64 .f32) (main_arg3 : FVec F S2x1x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x1x2048x2048 .f32 := Host.absf main_arg3
  let main_cst_4 : FVec F S_ .f32 := constant S_ .f32 0x7F800000#32
  let main_v15 : FVec F S2x1x2048x2048 .f32 := broadcastInDim S2x1x2048x2048 ![] bcast_S_S2x1x2048x2048 main_cst_4
  let main_v16 : IVec S2x1x2048x2048 1 := cmpf .olt main_v14 main_v15
  fn_part1 (F := F) main_arg3 main_v13 main_v16
-- ==== Kernel.lean ====
abbrev S2x16x2048x64 : Shape := ⟨4, ![2, 16, 2048, 64]⟩
abbrev S2x1x2048x2048 : Shape := ⟨4, ![2, 1, 2048, 2048]⟩
abbrev S1x1x2048x64 : Shape := ⟨4, ![1, 1, 2048, 64]⟩
abbrev S1x1x2048x2048 : Shape := ⟨4, ![1, 1, 2048, 2048]⟩
abbrev S2048x64 : Shape := ⟨2, ![2048, 64]⟩
abbrev S1x1x512x64 : Shape := ⟨4, ![1, 1, 512, 64]⟩
abbrev S512x64 : Shape := ⟨2, ![512, 64]⟩
abbrev S1x1x512x2048 : Shape := ⟨4, ![1, 1, 512, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .f32⟩
  | .hbm, ⟨4, _⟩ => ⟨S2x16x2048x64, .f32⟩
  | .local _ .vmem, ⟨0, _⟩ => ⟨S1x1x2048x64, .f32⟩
  | .local _ .vmem, ⟨1, _⟩ => ⟨S1x1x2048x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x2048x2048, .f32⟩
  | .local _ .vmem, ⟨7, _⟩ => ⟨S1x1x2048x64, .f32⟩
  | .local _ .vmem, ⟨8, _⟩ => ⟨S1x1x2048x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 16], ![false, false]⟩

def k0_mult1 : BitVec 32 :=
  let c0_i32 : BitVec 32 := 0#32
  let c512_i32 : BitVec 32 := 512#32
  let v6 : BitVec 32 := Scalar.muli c0_i32 c512_i32
  v6
def k0_off1 (c0_i32 : BitVec 32) : Fin 4 → Nat :=
  let c0_7 : Index := 0#32
  let c0_8 : Index := 0#32
  let c512_i32 : BitVec 32 := 512#32
  let v6 : BitVec 32 := Scalar.muli c0_i32 c512_i32
  let v7 : BitVec 32 := v6
  let v8 : Index := Scalar.indexCast v7
  let c0_9 : Index := 0#32
  ![0, 0, v8.toNat, 0]
def k0_off2 (c0_i32 : BitVec 32) : Fin 4 → Nat :=
  let c0_10 : Index := 0#32
  let c0_11 : Index := 0#32
  let c512_i32 : BitVec 32 := 512#32
  let v6 : BitVec 32 := Scalar.muli c0_i32 c512_i32
  let v7 : BitVec 32 := v6
  let v12 : Index := Scalar.indexCast v7
  let c0_12 : Index := 0#32
  ![0, 0, v12.toNat, 0]
def k0_mult2 : BitVec 32 :=
  let c1_i32 : BitVec 32 := 1#32
  let c512_i32_22 : BitVec 32 := 512#32
  let v38 : BitVec 32 := Scalar.muli c1_i32 c512_i32_22
  v38
def k0_mult3 : BitVec 32 :=
  let c2_i32 : BitVec 32 := 2#32
  let c512_i32_38 : BitVec 32 := 512#32
  let v70 : BitVec 32 := Scalar.muli c2_i32 c512_i32_38
  v70
def k0_mult4 : BitVec 32 :=
  let c3_i32 : BitVec 32 := 3#32
  let c512_i32_54 : BitVec 32 := 512#32
  let v102 : BitVec 32 := Scalar.muli c3_i32 c512_i32_54
  v102
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x2048x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  bitsLt_bf16_f32 : FTy.bits .bf16 < FTy.bits .f32
  h_S1x1x512x64 : 0 < S1x1x512x64.numel
  shapeCasts_S1x1x512x64_S512x64 : S1x1x512x64.ShapeCasts S512x64
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  k0_mult1_dvd : 512 ∣ k0_mult1.toNat
  k0_off1_inb : ∀ (r : Fin 4), ∀ a, (k0_off1 (BitVec.ofNat 32 r.val)) a + S1x1x512x64.size a ≤ S1x1x2048x64.size a
  k0_off2_inb : ∀ (r : Fin 4), ∀ a, (k0_off2 (BitVec.ofNat 32 r.val)) a + S1x1x512x2048.size a ≤ S1x1x2048x2048.size a
  k0_mult2_dvd : 512 ∣ k0_mult2.toNat
  k0_mult3_dvd : 512 ∣ k0_mult3.toNat
  k0_mult4_dvd : 512 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x2048x64.size a ≤ S2x16x2048x64.size a
  hwx0_0 : ∀ i : grid0.Coords, EltTy.bits .f32 = 32 ∨ (Rect.block (s := S2x16x2048x64) S1x1x2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x2048x2048.size a ≤ S2x1x2048x2048.size a
  hwx0_3 : ∀ i : grid0.Coords, EltTy.bits .f32 = 32 ∨ (Rect.block (s := S2x1x2048x2048) S1x1x2048x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048x64.size a ≤ S2x16x2048x64.size a
  hwx0_4 : ∀ i : grid0.Coords, EltTy.bits .f32 = 32 ∨ (Rect.block (s := S2x16x2048x64) S1x1x2048x64.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1x2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 29
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .f32⟩
  | .hbm, ⟨4, _⟩ => ⟨S2x16x2048x2048, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S_, .f32⟩
  | .hbm, ⟨10, _⟩ => ⟨S2x1x2048x2048, .f32⟩
  | .hbm, ⟨11, _⟩ => ⟨S2x1x2048x2048, .f32⟩
  | .hbm, ⟨12, _⟩ => ⟨S2x16x2048x2048, .f32⟩
  | .hbm, ⟨13, _⟩ => ⟨S2x16x2048x2048, .f32⟩
  | .hbm, ⟨14, _⟩ => ⟨S_, .f32⟩
  | .hbm, ⟨15, _⟩ => ⟨S2x16x2048, .f32⟩
  | .hbm, ⟨16, _⟩ => ⟨S_, .f32⟩
  | .hbm, ⟨17, _⟩ => ⟨S2x16x2048, .f32⟩
  | .hbm, ⟨18, _⟩ => ⟨S2x16x2048, .f32⟩
  | .hbm, ⟨19, _⟩ => ⟨S2x16x2048x1, .f32⟩
  | .hbm, ⟨20, _⟩ => ⟨S2x16x2048x2048, .f32⟩
  | .hbm, ⟨21, _⟩ => ⟨S2x16x2048x2048, .f32⟩
  | .hbm, ⟨22, _⟩ => ⟨S2x16x2048x2048, .f32⟩
  | .hbm, ⟨23, _⟩ => ⟨S_, .f32⟩
  | .hbm, ⟨24, _⟩ => ⟨S2x16x2048, .f32⟩
  | .hbm, ⟨25, _⟩ => ⟨S2x16x2048x1, .f32⟩
  | .hbm, ⟨26, _⟩ => ⟨S2x16x2048x2048, .f32⟩
  | .hbm, ⟨27, _⟩ => ⟨S2x16x2048x2048, .f32⟩
  | .hbm, ⟨28, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S2x1x2048x2048 : S_.BroadcastsInDim S2x1x2048x2048 (![] : Fin 0 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.AttnLiterals.lean ====
/-
  The float literals the two programs spell, as the extended reals their bit patterns denote, and the one
  arithmetic fact that joins the two scalings of a score: the reference divides a score by `sqrt 64`, the
  kernel multiplies it by `0.125`; since `sqrt 64 = 8` and `0.125 = 1/8` exactly, the two are one function
  on every extended real (an infinite score included: division by a nonzero real is the product with its
  reciprocal there too).
-/
import Idealize.ShloMosaic.PureOps.Ideal
import Idealize.ShloMosaic.PureOps.Ideal.Laws

noncomputable section

namespace Cert.AttnLiterals

open Idealize.ShloMosaic

/-- `1.0` denotes `1`. -/
theorem lit_one : Ideal.ofBits .f32 0x3F800000#32 = 1 := by
  simp [Ideal.ofBits, Ideal.ieee, -EReal.coe_mul]; norm_num

/-- `64.0` denotes the real `64`. -/
theorem lit_sixtyfour : Ideal.ofBits .f32 0x42800000#32 = ((64 : ℝ) : EReal) := by
  simp [Ideal.ofBits, Ideal.ieee, -EReal.coe_mul]; norm_num

/-- `0.125` denotes the real `1/8`. -/
theorem lit_eighth : Ideal.ofBits .f32 0x3E000000#32 = ((1 / 8 : ℝ) : EReal) := by
  simp [Ideal.ofBits, Ideal.ieee, -EReal.coe_mul]; norm_num

/-- The pattern `0xFF800000` denotes `-∞`, the least extended real. -/
theorem lit_neg_inf : Ideal.ofBits .f32 0xFF800000#32 = ⊥ := by
  simp [Ideal.ofBits, Ideal.ieee]

/-- The square root of `64` is `8`. -/
theorem sqrt_sixtyfour : Ideal.sqrt ((64 : ℝ) : EReal) = ((8 : ℝ) : EReal) := by
  have h : Real.sqrt 64 = 8 := by
    rw [show (64 : ℝ) = 8 ^ 2 by norm_num]
    exact Real.sqrt_sq (by norm_num)
  show (if (64 : ℝ) < 0 then (⊥ : EReal) else (Real.sqrt 64 : EReal)) = _
  rw [if_neg (by norm_num), h]

/-- Dividing by `sqrt 64` is multiplying by `0.125`, on every extended real. -/
theorem div_sqrt_sixtyfour (x : EReal) :
    Ideal.div x (Ideal.sqrt (Ideal.ofBits .f32 0x42800000#32)) = x * Ideal.ofBits .f32 0x3E000000#32 := by
  rw [lit_sixtyfour, sqrt_sixtyfour, lit_eighth, Ideal.div_coe (by norm_num : (8 : ℝ) ≠ 0)]

end Cert.AttnLiterals

end
-- ==== Proof.AttnSpec.lean ====
/-
  Masked scaled dot-product attention over the extended reals, as ONE function of the four argument arrays.

  For a batch `b`, head `h`, query row `q` and output column `d`:
    dot k   = ∑ e, Q[b,h,q,e] · K[b,h,k,e]                      (the raw score against key row k)
    s k     = score (dot k) (M[b,0,q,k])                          (scaled and masked)
    out     = ∑ k, exp (s k − max s) / (∑ k', exp (s k' − max s)) · V[b,h,k,d]
  with the row maximum taken from −∞. The two programs differ only in `score`:
    the kernel    takes  dot · 0.125 − 1e9  where the mask entry is nonzero, and  dot · 0.125  elsewhere;
    the reference takes  dot / sqrt 64 − 1e9 · mask.
  On a mask entry that is 0 or 1 these agree (`score_eq`): `sqrt 64 = 8`, `0.125 = 1/8`, `1e9 · 0 = 0`,
  `1e9 · 1 = 1e9`; none of these steps needs the score to be finite. So the two attention functions agree on
  every input whose mask holds only zeros and ones (`attnArr_congr`).
-/
import Idealize.ShloMosaic.PureOps.Ideal
import Idealize.ShloMosaic.PureOps.Ideal.Laws
import Idealize.ShloMosaic.Lib.ValueIdx
import proofs.«423381_j53180285059620_3_alg».proof.Proof.AttnLiterals

noncomputable section

namespace Cert.AttnSpec

open Idealize.ShloMosaic Idealize.ShloMosaic.ValueIdx

/-- The maximum of a row of 2048 scores, from `-∞`. -/
def rowMax (s : Fin 2048 → EReal) : EReal :=
  (Finset.univ : Finset (Fin 2048)).fold max (Ideal.ofBits .f32 0xFF800000#32) s

/-- The softmax of the scores `s` weighting the values `v`: `∑ k, exp (s k − max) / (∑ k', exp (s k' − max)) · v k`. -/
def attend (s v : Fin 2048 → EReal) : EReal :=
  ∑ k : Fin 2048, Ideal.div (Ideal.exp (s k - rowMax s)) (∑ k' : Fin 2048, Ideal.exp (s k' - rowMax s)) * v k

/-- The kernel's score: the raw dot product times `0.125`, less `1e9` where the mask entry is not zero. -/
def scoreK (dot msk : EReal) : EReal :=
  Scalar.select (Ideal.cmp .one msk (Ideal.ofBits .f32 0x00000000#32))
    (dot * Ideal.ofBits .f32 0x3E000000#32 - Ideal.ofBits .f32 0x4E6E6B28#32)
    (dot * Ideal.ofBits .f32 0x3E000000#32)

/-- The reference's score: the raw dot product over `sqrt 64`, less `1e9` times the mask entry. -/
def scoreR (dot msk : EReal) : EReal :=
  Ideal.div dot (Ideal.sqrt (Ideal.ofBits .f32 0x42800000#32)) - Ideal.ofBits .f32 0x4E6E6B28#32 * msk

/-- On a mask entry that is `0` or `1` the two scores are one extended real, whatever the dot product. -/
theorem score_eq (dot msk : EReal) (h : msk = 0 ∨ msk = 1) : scoreK dot msk = scoreR dot msk := by
  unfold scoreK scoreR
  rw [Cert.AttnLiterals.div_sqrt_sixtyfour, Ideal.ofBits_zero_f32]
  rcases h with rfl | rfl
  · have hc : Ideal.cmp .one (0 : EReal) 0 = 0#1 := by simp [Ideal.cmp]
    rw [hc, select_zero, mul_zero, sub_zero]
  · have hc : Ideal.cmp .one (1 : EReal) 0 = 1#1 := by simp [Ideal.cmp]
    rw [hc, select_one, mul_one]

/-- Attention at one output entry, over the arrays read by coordinates. -/
def attnAt (sc : EReal → EReal → EReal)
    (Q K V : (⟨4, ![2, 16, 2048, 64]⟩ : Shape).Idx → EReal) (M : (⟨4, ![2, 1, 2048, 2048]⟩ : Shape).Idx → EReal)
    (b : Fin 2) (h : Fin 16) (q : Fin 2048) (d : Fin 64) : EReal :=
  attend (fun k => sc (∑ e : Fin 64, Q (ix4 b h q e) * K (ix4 b h k e)) (M (ix4 b (0 : Fin 1) q k)))
    (fun k => V (ix4 b h k d))

/-- Attention as a whole array: the function both programs compute, up to the form `sc` of the score. -/
def attnArr (sc : EReal → EReal → EReal)
    (Q K V : (⟨4, ![2, 16, 2048, 64]⟩ : Shape).Idx → EReal) (M : (⟨4, ![2, 1, 2048, 2048]⟩ : Shape).Idx → EReal) :
    (⟨4, ![2, 16, 2048, 64]⟩ : Shape).Idx → EReal :=
  fun i => attnAt sc Q K V M (i 0) (i 1) (i 2) (i 3)

theorem attnArr_apply (sc : EReal → EReal → EReal)
    (Q K V : (⟨4, ![2, 16, 2048, 64]⟩ : Shape).Idx → EReal) (M : (⟨4, ![2, 1, 2048, 2048]⟩ : Shape).Idx → EReal)
    (b : Fin 2) (h : Fin 16) (q : Fin 2048) (d : Fin 64) :
    attnArr sc Q K V M (ix4 b h q d) = attnAt sc Q K V M b h q d := rfl

/-- The same at one grid block: query, key, value rows of one (batch, head), the mask rows of one batch. -/
def attnBlk (sc : EReal → EReal → EReal)
    (q k v : (⟨4, ![1, 1, 2048, 64]⟩ : Shape).Idx → EReal) (mk : (⟨4, ![1, 1, 2048, 2048]⟩ : Shape).Idx → EReal) :
    (⟨4, ![1, 1, 2048, 64]⟩ : Shape).Idx → EReal :=
  fun y => attend
    (fun kk => sc (∑ e : Fin 64, q (ix4 (0 : Fin 1) (0 : Fin 1) (y 2) e) * k (ix4 (0 : Fin 1) (0 : Fin 1) kk e))
      (mk (ix4 (0 : Fin 1) (0 : Fin 1) (y 2) kk)))
    (fun kk => v (ix4 (0 : Fin 1) (0 : Fin 1) kk (y 3)))

/-- Two score forms that agree on every entry of the mask give one attention array. -/
theorem attnArr_congr (sc sc' : EReal → EReal → EReal)
    (Q K V : (⟨4, ![2, 16, 2048, 64]⟩ : Shape).Idx → EReal) (M : (⟨4, ![2, 1, 2048, 2048]⟩ : Shape).Idx → EReal)
    (h : ∀ (x : EReal) i, sc x (M i) = sc' x (M i)) : attnArr sc Q K V M = attnArr sc' Q K V M := by
  funext i
  unfold attnArr attnAt
  congr 1
  funext k
  exact h _ _

/-- On a mask of zeros and ones the kernel's and the reference's attention arrays are equal. -/
theorem attnArr_scoreK_eq_scoreR
    (Q K V : (⟨4, ![2, 16, 2048, 64]⟩ : Shape).Idx → EReal) (M : (⟨4, ![2, 1, 2048, 2048]⟩ : Shape).Idx → EReal)
    (hM : ∀ i, M i = 0 ∨ M i = 1) : attnArr scoreK Q K V M = attnArr scoreR Q K V M :=
  attnArr_congr scoreK scoreR Q K V M fun x i => score_eq x (M i) (hM i)

end Cert.AttnSpec

end
-- ==== Proof.AttnChunk.lean ====
/-
  One 512-row chunk of the kernel body as a pure function of what it reads: the key and value rows of the
  (batch, head) block, the 512 query rows of the chunk and the matching 512 mask rows. The four unrolled
  chunks of the body are this one function at four row offsets (`pay*_eq`, by unfolding). Read at an output
  entry (row `p` of the chunk, column `d`) it is the softmax of row `p`'s masked scores weighting column `d`
  of the value rows (`chunk_apply`).
-/
import proofs.«423381_j53180285059620_3_alg».proof.Proof.Gen.KernelIdeal.Skeleton
import proofs.«423381_j53180285059620_3_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.AttnChunk

open Cert.KernelIdeal Cert.KernelIdeal.Facts₀ Idealize.ShloMosaic Idealize.ShloMosaic.ValueIdx Cert.AttnSpec
open Cert.KernelIdeal.Gen (k0_pay1 k0_pay2 k0_pay3 k0_pay4 k0_pay5 k0_pay6 k0_pay7 k0_pay8)

variable {F : FTy → Type} [FloatOps F]

/-- One chunk: scores of 512 query rows against all 2048 key rows, scaled by `cst`, masked, softmaxed along the
    key axis and multiplied into the value rows. -/
def chunk (kbf vbf : FVec F S2048x64 .bf16) (cst : F .f32) (qbf : FVec F S512x64 .bf16) (mk : FVec F S512x2048 .f32) :
    FVec F S512x64 .f32 :=
  have cst_29 : FVec F S512x2048 .f32 := constant S512x2048 .f32 0x00000000#32
  have v47 : FVec F S512x2048 .f32 := matmul dot_S512x64_S2048x64_S512x2048_1_1_0_0_n_n none qbf kbf cst_29
  have v48 : FVec F S512x2048 .f32 := broadcast S512x2048 cst
  have v49 : FVec F S512x2048 .f32 := mulf v47 v48
  have cst_30 : F .f32 := Scalar.ofBits .f32 0x00000000#32
  have v50 : FVec F S512x2048 .f32 := broadcast S512x2048 cst_30
  have v51 : IVec S512x2048 1 := cmpf .one mk v50
  have cst_31 : F .f32 := Scalar.ofBits .f32 0x4E6E6B28#32
  have v52 : FVec F S512x2048 .f32 := broadcast S512x2048 cst_31
  have v53 : FVec F S512x2048 .f32 := subf v49 v52
  have v54 : FVec F S512x2048 .f32 := select v51 v53 v49
  have v55 : FVec F S512 .f32 := multiReduction .maximumf [1] S512 v54 0xFF800000#32 reduces_S512x2048_S512 (.inl rfl) rfl
  have v56 : FVec F S512x1 .f32 := shapeCast S512x1 v55 shapeCasts_S512_S512x1
  have v57 : FVec F S512x2048 .f32 := broadcastTo S512x2048 v56 broadcasts_S512x1_S512x2048
  have v58 : FVec F S512x2048 .f32 := subf v54 v57
  have v59 : FVec F S512x2048 .f32 := exp v58
  have v60 : FVec F S512 .f32 := multiReduction .add [1] S512 v59 0x00000000#32 reduces_S512x2048_S512 (.inl rfl) rfl
  have v61 : FVec F S512x1 .f32 := shapeCast S512x1 v60 shapeCasts_S512_S512x1
  have v62 : FVec F S512x2048 .f32 := broadcastTo S512x2048 v61 broadcasts_S512x1_S512x2048
  have v63 : FVec F S512x2048 .f32 := divf v59 v62
  have v64 : FVec F S512x2048 .bf16 := truncf .bf16 v63 bitsLt_bf16_f32
  have cst_34 : FVec F S512x64 .f32 := constant S512x64 .f32 0x00000000#32
  matmul dot_S512x2048_S2048x64_S512x64_1_0_0_1_n_n none v64 vbf cst_34

/-- The first chunk's stored value. -/
theorem pay5_pay4_eq (v0 v3 : Vec F S1x1x2048x64 .f32) (v9 : Vec F S1x1x512x64 .f32) (v13 : Vec F S1x1x512x2048 .f32) :
    k0_pay5 (k0_pay4 v0 v3 v9 v13)
      = shapeCast S1x1x512x64 (chunk (k0_pay2 v0) (k0_pay3 v3) (Scalar.ofBits .f32 0x3E000000#32)
          (truncf .bf16 (shapeCast S512x64 v9 shapeCasts_S1x1x512x64_S512x64) bitsLt_bf16_f32)
          (shapeCast S512x2048 v13 shapeCasts_S1x1x512x2048_S512x2048)) shapeCasts_S512x64_S1x1x512x64 := rfl

/-- The second chunk's stored value. -/
theorem pay6_eq (v2 v5 : FVec F S2048x64 .bf16) (cst : F .f32) (v41 : Vec F S1x1x512x64 .f32) (v45 : Vec F S1x1x512x2048 .f32) :
    k0_pay6 v2 v5 cst v41 v45
      = shapeCast S1x1x512x64 (chunk v2 v5 cst
          (truncf .bf16 (shapeCast S512x64 v41 shapeCasts_S1x1x512x64_S512x64) bitsLt_bf16_f32)
          (shapeCast S512x2048 v45 shapeCasts_S1x1x512x2048_S512x2048)) shapeCasts_S512x64_S1x1x512x64 := rfl

/-- The third chunk's stored value. -/
theorem pay7_eq (v2 v5 : FVec F S2048x64 .bf16) (cst : F .f32) (v73 : Vec F S1x1x512x64 .f32) (v77 : Vec F S1x1x512x2048 .f32) :
    k0_pay7 v2 v5 cst v73 v77
      = shapeCast S1x1x512x64 (chunk v2 v5 cst
          (truncf .bf16 (shapeCast S512x64 v73 shapeCasts_S1x1x512x64_S512x64) bitsLt_bf16_f32)
          (shapeCast S512x2048 v77 shapeCasts_S1x1x512x2048_S512x2048)) shapeCasts_S512x64_S1x1x512x64 := rfl

/-- The fourth chunk's stored value. -/
theorem pay1_eq (v2 v5 : FVec F S2048x64 .bf16) (cst : F .f32) (v107 : FVec F S512x64 .bf16) (v109 : Vec F S1x1x512x2048 .f32) :
    k0_pay1 v2 v5 cst v107 v109
      = shapeCast S1x1x512x64 (chunk v2 v5 cst v107
          (shapeCast S512x2048 v109 shapeCasts_S1x1x512x2048_S512x2048)) shapeCasts_S512x64_S1x1x512x64 := rfl

/-! ## The two products read at an index -/

section Dots

/-- The value product's left operand index at output `(p, d)` and contraction coordinate `q`: row `p`. -/
theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
/-- … and column `q`. -/
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
/-- The value product's right operand index: row `q` … -/
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
/-- … and column `d`. -/
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The value product at `(p, d)`: the sum over the 2048 key rows of the weight at `(p, k)` times the value at `(k, d)`. -/
theorem pv_apply (w : FVec Ideal S512x2048 .bf16) (v : FVec Ideal S2048x64 .bf16) (p : Fin 512) (d : Fin 64) :
    matmul dot_S512x2048_S2048x64_S512x64_1_0_0_1_n_n none w v (constant S512x64 .f32 0x00000000#32) (ix2 p d)
      = ∑ k : Fin 2048, w (ix2 p k) * v (ix2 k d) := by
  simp only [matmul]
  rw [Ideal.matmul_constant_zero_apply,
    ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 p d)
      ((ValueIdx.contrEquiv1 dot_S512x2048_S2048x64_S512x64_1_0_0_1_n_n 2048 rfl rfl).symm k) = ix2 p k :=
    funext fun a => Fin.ext (by
      match a with
      | ⟨0, _⟩ => exact lhs_pv_0 _ _
      | ⟨1, _⟩ => exact (lhs_pv_1 _ _).trans hk)
  have er : dot_S512x2048_S2048x64_S512x64_1_0_0_1_n_n.rhsIdx (ix2 p d)
      ((ValueIdx.contrEquiv1 dot_S512x2048_S2048x64_S512x64_1_0_0_1_n_n 2048 rfl rfl).symm k) = ix2 k d :=
    funext fun a => Fin.ext (by
      match a with
      | ⟨0, _⟩ => exact (rhs_pv_0 _ _).trans hk
      | ⟨1, _⟩ => exact rhs_pv_1 _ _)
  rw [el, er]

/-- The score product's left operand index at output `(p, k)` and contraction coordinate `q`: row `p` … -/
theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
/-- … and column `q`. -/
theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
/-- The score product's right operand index: row `k` … -/
theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
/-- … and column `q`. -/
theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The score product at `(p, k)`: the dot product of query row `p` and key row `k` over the 64 columns. -/
theorem qk_apply (q : FVec Ideal S512x64 .bf16) (kk : FVec Ideal S2048x64 .bf16) (p : Fin 512) (k : Fin 2048) :
    matmul dot_S512x64_S2048x64_S512x2048_1_1_0_0_n_n none q kk (constant S512x2048 .f32 0x00000000#32) (ix2 p k)
      = ∑ e : Fin 64, q (ix2 p e) * kk (ix2 k e) := by
  simp only [matmul]
  rw [Ideal.matmul_constant_zero_apply,
    ← Equiv.sum_comp (ValueIdx.contrEquiv1 dot_S512x64_S2048x64_S512x2048_1_1_0_0_n_n 64 rfl rfl).symm]
  refine Finset.sum_congr rfl fun e _ => ?_
  have he := ValueIdx.contrEquiv1_symm_val dot_S512x64_S2048x64_S512x2048_1_1_0_0_n_n 64 rfl rfl e
  have el : dot_S512x64_S2048x64_S512x2048_1_1_0_0_n_n.lhsIdx (ix2 p k)
      ((ValueIdx.contrEquiv1 dot_S512x64_S2048x64_S512x2048_1_1_0_0_n_n 64 rfl rfl).symm e) = ix2 p e :=
    funext fun a => Fin.ext (by
      match a with
      | ⟨0, _⟩ => exact lhs_qk_0 _ _
      | ⟨1, _⟩ => exact (lhs_qk_1 _ _).trans he)
  have er : dot_S512x64_S2048x64_S512x2048_1_1_0_0_n_n.rhsIdx (ix2 p k)
      ((ValueIdx.contrEquiv1 dot_S512x64_S2048x64_S512x2048_1_1_0_0_n_n 64 rfl rfl).symm e) = ix2 k e :=
    funext fun a => Fin.ext (by
      match a with
      | ⟨0, _⟩ => exact rhs_qk_0 _ _
      | ⟨1, _⟩ => exact (rhs_qk_1 _ _).trans he)
  rw [el, er]

end Dots

/-! ## The row reductions and the row value spread back over its row -/

section Rows

/-- The index of row `p` with coordinate `k` put back on the reduced axis is `(p, k)`. -/
theorem lift_row (p : Fin 512) (k : Fin 2048) :
    reduces_S512x2048_S512.lift (ix1 p) k = ix2 p k :=
  funext fun a => Fin.ext (by
    match a with
    | ⟨0, _⟩ => rfl
    | ⟨1, _⟩ => rfl)

/-- The maximum along the key axis at row `p`: the fold of `max` from `-∞`'s pattern over that row's 2048 entries. -/
theorem rowmax_apply (x : FVec Ideal S512x2048 .f32) (p : Fin 512) :
    multiReduction .maximumf [1] S512 x 0xFF800000#32 reduces_S512x2048_S512 (.inl rfl) rfl (ix1 p)
      = (Finset.univ : Finset (Fin 2048)).fold max (Ideal.ofBits .f32 0xFF800000#32) (fun k => x (ix2 p k)) := by
  refine (Ideal.multiReduction_maximumf_single x 0xFF800000#32 reduces_S512x2048_S512 (.inl rfl) rfl (ix1 p)).trans ?_
  refine congrArg (fun g : Fin 2048 → EReal => (Finset.univ : Finset (Fin 2048)).fold max (Ideal.ofBits .f32 0xFF800000#32) g) ?_
  funext k
  exact congrArg x (lift_row p k)

/-- The sum along the key axis at row `p`: the sum of that row's 2048 entries. -/
theorem rowsum_apply (x : FVec Ideal S512x2048 .f32) (p : Fin 512) :
    multiReduction .add [1] S512 x 0x00000000#32 reduces_S512x2048_S512 (.inl rfl) rfl (ix1 p)
      = ∑ k : Fin 2048, x (ix2 p k) := by
  refine (Ideal.multiReduction_add_single x 0x00000000#32 reduces_S512x2048_S512 (.inl rfl) rfl (ix1 p)).trans ?_
  refine Finset.sum_congr rfl fun k _ => ?_
  exact congrArg x (lift_row p k)

end Rows

section Keep

/-- A row value kept as a `[512, 1]` column and spread over the 2048 columns reads, at `(p, k)`, the value of row `p`. -/
theorem keepdims_apply {α : Type} (v : S512.Idx → α) (p : Fin 512) (k : Fin 2048) :
    broadcastTo S512x2048 (shapeCast S512x1 v shapeCasts_S512_S512x1) broadcasts_S512x1_S512x2048 (ix2 p k) = v (ix1 p) := by
  refine (broadcastTo_apply (shapeCast S512x1 v shapeCasts_S512_S512x1) broadcasts_S512x1_S512x2048 (ix2 p k)
    (ix2 p (0 : Fin 1)) fun a => ?_).trans ?_
  · match a with
    | ⟨0, _⟩ => rfl
    | ⟨1, _⟩ => rfl
  · exact shapeCast_apply v shapeCasts_S512_S512x1 (ix2 p (0 : Fin 1)) (ix1 p) (by
      rw [Shape.rowMajor_val_one, Shape.rowMajor_val_two]
      show p.val = p.val * 1 + 0
      omega)

end Keep

/-! ## The softmax of a score block weighting the value rows, and the score block, at an index -/

section Soft

/-- From the masked score block `x` on: subtract each row's maximum, exponentiate, divide by each row's sum and multiply
    into the value rows. At `(p, d)` this is the softmax of row `p` of `x` weighting column `d` of the value rows. -/
theorem softmax_apply (x : FVec Ideal S512x2048 .f32) (vbf : FVec Ideal S2048x64 .bf16) (p : Fin 512) (d : Fin 64) :
    matmul dot_S512x2048_S2048x64_S512x64_1_0_0_1_n_n none
      (truncf .bf16
        (divf
          (exp (subf x (broadcastTo S512x2048 (shapeCast S512x1
            (multiReduction .maximumf [1] S512 x 0xFF800000#32 reduces_S512x2048_S512 (.inl rfl) rfl)
            shapeCasts_S512_S512x1) broadcasts_S512x1_S512x2048)))
          (broadcastTo S512x2048 (shapeCast S512x1
            (multiReduction .add [1] S512
              (exp (subf x (broadcastTo S512x2048 (shapeCast S512x1
                (multiReduction .maximumf [1] S512 x 0xFF800000#32 reduces_S512x2048_S512 (.inl rfl) rfl)
                shapeCasts_S512_S512x1) broadcasts_S512x1_S512x2048)))
              0x00000000#32 reduces_S512x2048_S512 (.inl rfl) rfl)
            shapeCasts_S512_S512x1) broadcasts_S512x1_S512x2048))
        bitsLt_bf16_f32)
      vbf (constant S512x64 .f32 0x00000000#32) (ix2 p d)
      = attend (fun k : Fin 2048 => x (ix2 p k)) (fun k : Fin 2048 => vbf (ix2 k d)) := by
  -- the row maximum, spread over the row, is `rowMax` of the row
  have hm : ∀ k : Fin 2048,
      (broadcastTo S512x2048 (shapeCast S512x1
        (multiReduction .maximumf [1] S512 x 0xFF800000#32 reduces_S512x2048_S512 (.inl rfl) rfl)
        shapeCasts_S512_S512x1) broadcasts_S512x1_S512x2048 : FVec Ideal S512x2048 .f32) (ix2 p k)
        = rowMax (fun k : Fin 2048 => x (ix2 p k)) := fun k =>
    (keepdims_apply _ p k).trans (rowmax_apply x p)
  -- the exponentials of the shifted row
  have he : ∀ k : Fin 2048,
      (exp (subf x (broadcastTo S512x2048 (shapeCast S512x1
        (multiReduction .maximumf [1] S512 x 0xFF800000#32 reduces_S512x2048_S512 (.inl rfl) rfl)
        shapeCasts_S512_S512x1) broadcasts_S512x1_S512x2048)) : FVec Ideal S512x2048 .f32) (ix2 p k)
        = Ideal.exp (x (ix2 p k) - rowMax (fun k : Fin 2048 => x (ix2 p k))) := fun k =>
    congrArg (fun m : EReal => Ideal.exp (x (ix2 p k) - m)) (hm k)
  -- their sum, spread over the row
  have hs : ∀ k : Fin 2048,
      (broadcastTo S512x2048 (shapeCast S512x1
        (multiReduction .add [1] S512
          (exp (subf x (broadcastTo S512x2048 (shapeCast S512x1
            (multiReduction .maximumf [1] S512 x 0xFF800000#32 reduces_S512x2048_S512 (.inl rfl) rfl)
            shapeCasts_S512_S512x1) broadcasts_S512x1_S512x2048)))
          0x00000000#32 reduces_S512x2048_S512 (.inl rfl) rfl)
        shapeCasts_S512_S512x1) broadcasts_S512x1_S512x2048 : FVec Ideal S512x2048 .f32) (ix2 p k)
        = ∑ k' : Fin 2048, Ideal.exp (x (ix2 p k') - rowMax (fun k : Fin 2048 => x (ix2 p k))) := fun k =>
    (keepdims_apply _ p k).trans ((rowsum_apply _ p).trans (Finset.sum_congr rfl fun k' _ => he k'))
  refine (pv_apply _ vbf p d).trans ?_
  unfold attend
  refine Finset.sum_congr rfl fun k _ => ?_
  refine congrArg (fun w : EReal => w * vbf (ix2 k d)) ?_
  refine (congrArg₂ Ideal.div (he k) (hs k))

end Soft

section Score

/-- The masked, scaled score block at `(p, k)`: the kernel's score of query row `p` against key row `k` under the
    mask entry at `(p, k)`. -/
theorem score_apply (kbf : FVec Ideal S2048x64 .bf16) (qbf : FVec Ideal S512x64 .bf16) (mk : FVec Ideal S512x2048 .f32)
    (p : Fin 512) (k : Fin 2048) :
    (select (cmpf .one mk (broadcast S512x2048 (Scalar.ofBits .f32 0x00000000#32 : Ideal .f32)))
        (subf
          (mulf (matmul dot_S512x64_S2048x64_S512x2048_1_1_0_0_n_n none qbf kbf (constant S512x2048 .f32 0x00000000#32))
            (broadcast S512x2048 (Scalar.ofBits .f32 0x3E000000#32 : Ideal .f32)))
          (broadcast S512x2048 (Scalar.ofBits .f32 0x4E6E6B28#32 : Ideal .f32)))
        (mulf (matmul dot_S512x64_S2048x64_S512x2048_1_1_0_0_n_n none qbf kbf (constant S512x2048 .f32 0x00000000#32))
          (broadcast S512x2048 (Scalar.ofBits .f32 0x3E000000#32 : Ideal .f32))) : FVec Ideal S512x2048 .f32) (ix2 p k)
      = scoreK (∑ e : Fin 64, qbf (ix2 p e) * kbf (ix2 k e)) (mk (ix2 p k)) := by
  unfold scoreK
  rw [← qk_apply qbf kbf p k]
  rfl

end Score

/-- A chunk at row `p`, column `d`: the softmax of row `p`'s masked, scaled scores against the 2048 key rows, weighting
    column `d` of the value rows. -/
theorem chunk_apply (kbf vbf : FVec Ideal S2048x64 .bf16) (qbf : FVec Ideal S512x64 .bf16) (mk : FVec Ideal S512x2048 .f32)
    (p : Fin 512) (d : Fin 64) :
    chunk (F := Ideal) kbf vbf (Scalar.ofBits .f32 0x3E000000#32) qbf mk (ix2 p d)
      = attend (fun k : Fin 2048 => scoreK (∑ e : Fin 64, qbf (ix2 p e) * kbf (ix2 k e)) (mk (ix2 p k)))
          (fun k : Fin 2048 => vbf (ix2 k d)) := by
  unfold chunk
  refine (softmax_apply _ vbf p d).trans ?_
  refine congrArg (fun s : Fin 2048 → EReal => attend s (fun k : Fin 2048 => vbf (ix2 k d))) ?_
  funext k
  exact score_apply kbf qbf mk p k

end Cert.AttnChunk

end
-- ==== Proof.AttnBlock.lean ====
/-
  What one grid point leaves in the output block: the body stores four 512-row chunks which tile the 2048 rows,
  each a block of ONE function of the block index — attention of the (batch, head)'s query, key and value rows
  under the batch's mask rows. So the block reads back as that function.
-/
import proofs.«423381_j53180285059620_3_alg».proof.Proof.Gen.KernelIdeal.Frame
import proofs.«423381_j53180285059620_3_alg».proof.Proof.AttnChunk

set_option maxRecDepth 16384

noncomputable section

namespace Cert.AttnBlock

open Cert.KernelIdeal Cert.KernelIdeal.Gen Idealize.ShloMosaic Idealize.ShloMosaic.TcCoe
open Idealize.ShloMosaic.ValueIdx Cert.AttnSpec Cert.AttnChunk
open Idealize.ShloMosaic.Tactic

section Layout
variable {α : Type}

/-- An `[a, b]` array cast to `[1, 1, a, b]` reads, at `(u, v, i, j)`, the operand at `(i, j)`: the two row-major positions
    agree because both unit coordinates are `0`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv, Nat.zero_mul, Nat.zero_add])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    rw [Nat.zero_mul, Nat.zero_add])

/-- The rectangle of 512 rows from row `o` of a `[1, 1, 2048, n]` block places its local index `(u, v, r, e)` at
    `(0, 0, o + r, e)`. -/
theorem emb_rows_apply {n : ℕ} (o : ℕ)
    (inb : ∀ a, (![0, 0, o, 0] : Fin 4 → ℕ) a + (![1, 1, 512, n] : Fin 4 → ℕ) a ≤ (⟨4, ![1, 1, 2048, n]⟩ : Shape).size a)
    (u v : Fin 1) (r : Fin 512) (e : Fin n) (h : o + r.val < 2048) :
    (Rect.unit (s := ⟨4, ![1, 1, 2048, n]⟩) ![0, 0, o, 0] ![1, 1, 512, n] inb).emb (ix4 u v r e)
      = ix4 (0 : Fin 1) (0 : Fin 1) (⟨o + r.val, h⟩ : Fin 2048) e := by
  funext a
  match a with
  | ⟨0, _⟩ => exact Fin.ext (by show 0 + 1 * u.val = 0; omega)
  | ⟨1, _⟩ => exact Fin.ext (by show 0 + 1 * v.val = 0; omega)
  | ⟨2, _⟩ => exact Fin.ext (by show o + 1 * r.val = o + r.val; omega)
  | ⟨3, _⟩ => exact Fin.ext (by show 0 + 1 * e.val = e.val; omega)

end Layout

/-! ## The inputs of a chunk, entry by entry -/

/-- The key rows as the chunk takes them: the block's entries (a change of float format is the identity here). -/
theorem pay2_apply (v : Vec Ideal S1x1x2048x64 .f32) (k : Fin 2048) (e : Fin 64) :
    k0_pay2 (F := Ideal) v (ix2 k e) = v (ix4 (0 : Fin 1) (0 : Fin 1) k e) :=
  shapeCast_11ab_ab_apply v shapeCasts_S1x1x2048x64_S2048x64 k e

/-- The value rows as the chunk takes them: the block's entries. -/
theorem pay3_apply (v : Vec Ideal S1x1x2048x64 .f32) (k : Fin 2048) (e : Fin 64) :
    k0_pay3 (F := Ideal) v (ix2 k e) = v (ix4 (0 : Fin 1) (0 : Fin 1) k e) :=
  shapeCast_11ab_ab_apply v shapeCasts_S1x1x2048x64_S2048x64 k e

/-- The 512 query rows from row `o`, as the chunk takes them: row `r` of the chunk is row `o + r` of the block. -/
theorem q_rows_apply (x0 : Vec Ideal S1x1x2048x64 .f32) (o : ℕ)
    (inb : ∀ a, (![0, 0, o, 0] : Fin 4 → ℕ) a + S1x1x512x64.size a ≤ S1x1x2048x64.size a)
    (r : Fin 512) (e : Fin 64) (h : o + r.val < 2048) :
    (truncf .bf16 (shapeCast S512x64 (View.ld x0 (Rect.unit ![0, 0, o, 0] S1x1x512x64.size inb))
        shapeCasts_S1x1x512x64_S512x64) bitsLt_bf16_f32 : FVec Ideal S512x64 .bf16) (ix2 r e)
      = x0 (ix4 (0 : Fin 1) (0 : Fin 1) (⟨o + r.val, h⟩ : Fin 2048) e) := by
  refine (shapeCast_11ab_ab_apply (View.ld x0 (Rect.unit ![0, 0, o, 0] S1x1x512x64.size inb))
    shapeCasts_S1x1x512x64_S512x64 r e).trans ?_
  exact congrArg x0 (emb_rows_apply o inb 0 0 r e h)

/-- The 512 mask rows from row `o`, as the chunk takes them: row `r` of the chunk is row `o + r` of the block. -/
theorem m_rows_apply (x3 : Vec Ideal S1x1x2048x2048 .f32) (o : ℕ)
    (inb : ∀ a, (![0, 0, o, 0] : Fin 4 → ℕ) a + S1x1x512x2048.size a ≤ S1x1x2048x2048.size a)
    (r : Fin 512) (k : Fin 2048) (h : o + r.val < 2048) :
    (shapeCast S512x2048 (View.ld x3 (Rect.unit ![0, 0, o, 0] S1x1x512x2048.size inb))
        shapeCasts_S1x1x512x2048_S512x2048 : FVec Ideal S512x2048 .f32) (ix2 r k)
      = x3 (ix4 (0 : Fin 1) (0 : Fin 1) (⟨o + r.val, h⟩ : Fin 2048) k) := by
  refine (shapeCast_11ab_ab_apply (View.ld x3 (Rect.unit ![0, 0, o, 0] S1x1x512x2048.size inb))
    shapeCasts_S1x1x512x2048_S512x2048 r k).trans ?_
  exact congrArg x3 (emb_rows_apply o inb 0 0 r k h)

/-- Attention of a block at an output entry given by coordinates. -/
theorem attnBlk_apply (sc : EReal → EReal → EReal) (q k v : Vec Ideal S1x1x2048x64 .f32) (mk : Vec Ideal S1x1x2048x2048 .f32)
    (r : Fin 2048) (d : Fin 64) :
    attnBlk sc q k v mk (ix4 (0 : Fin 1) (0 : Fin 1) r d)
      = attend (fun kk => sc (∑ e : Fin 64, q (ix4 (0 : Fin 1) (0 : Fin 1) r e) * k (ix4 (0 : Fin 1) (0 : Fin 1) kk e))
            (mk (ix4 (0 : Fin 1) (0 : Fin 1) r kk)))
          (fun kk => v (ix4 (0 : Fin 1) (0 : Fin 1) kk d)) := rfl

/-! ## One stored chunk is a block of the attention function -/

/-- A chunk computed from the whole key and value blocks, from query rows that are rows `o …` of the query block and from
    mask rows that are rows `o …` of the mask block, stored at rows `o …` of the output block: at each of its entries it
    is attention of the four blocks at the output entry it is stored to. -/
theorem piece_apply (x0 x1 x2 : Vec Ideal S1x1x2048x64 .f32) (x3 : Vec Ideal S1x1x2048x2048 .f32) (o : ℕ) (ho : o + 512 ≤ 2048)
    (inbq : ∀ a, (![0, 0, o, 0] : Fin 4 → ℕ) a + S1x1x512x64.size a ≤ S1x1x2048x64.size a)
    (qbf : FVec Ideal S512x64 .bf16) (mk : FVec Ideal S512x2048 .f32)
    (hq : ∀ (r : Fin 512) (e : Fin 64) (h : o + r.val < 2048),
      qbf (ix2 r e) = x0 (ix4 (0 : Fin 1) (0 : Fin 1) (⟨o + r.val, h⟩ : Fin 2048) e))
    (hm : ∀ (r : Fin 512) (k : Fin 2048) (h : o + r.val < 2048),
      mk (ix2 r k) = x3 (ix4 (0 : Fin 1) (0 : Fin 1) (⟨o + r.val, h⟩ : Fin 2048) k))
    (x : S1x1x512x64.Idx) :
    shapeCast S1x1x512x64 (chunk (F := Ideal) (k0_pay2 x1) (k0_pay3 x2) (Scalar.ofBits .f32 0x3E000000#32) qbf mk)
        shapeCasts_S512x64_S1x1x512x64 x
      = attnBlk scoreK x0 x1 x2 x3 ((Rect.unit (s := S1x1x2048x64) ![0, 0, o, 0] S1x1x512x64.size inbq).emb x) := by
  obtain ⟨a, b, r, e, rfl⟩ : ∃ (a b : Fin 1) (r : Fin 512) (e : Fin 64), x = ix4 a b r e := ⟨_, _, _, _, eq_ix4 x⟩
  have hr : o + r.val < 2048 := by have := r.isLt; omega
  refine (shapeCast_ab_11ab_apply _ shapeCasts_S512x64_S1x1x512x64 a b r e).trans ?_
  refine (chunk_apply (k0_pay2 x1) (k0_pay3 x2) qbf mk r e).trans ?_
  refine Eq.trans ?_ (congrArg (attnBlk scoreK x0 x1 x2 x3) (emb_rows_apply o inbq a b r e hr)).symm
  refine Eq.trans ?_ (attnBlk_apply scoreK x0 x1 x2 x3 ⟨o + r.val, hr⟩ e).symm
  congr 1
  · funext k
    congr 1
    · exact Finset.sum_congr rfl fun e' _ => by rw [hq r e' hr, pay2_apply]
    · exact hm r k hr
  · funext k
    exact pay3_apply x2 k e

/-- The output block after the body, at any point and on any staging memrefs, is attention of the input blocks. -/
theorem out_eq (c : Dev nD) (i : grid0.Coords) (arg2 : Memref sig .tc .vmem S1x1x2048x64 .f32) (harg2 : arg2.IsWhole) (arg3 : Memref sig .tc .vmem S1x1x2048x64 .f32) (harg3 : arg3.IsWhole) (arg4 : Memref sig .tc .vmem S1x1x2048x64 .f32) (harg4 : arg4.IsWhole) (arg5 : Memref sig .tc .vmem S1x1x2048x2048 .f32) (harg5 : arg5.IsWhole) (arg6 : Memref sig .tc .vmem S1x1x2048x64 .f32) (harg6 : arg6.IsWhole)
    (x0 x1 x2 : Vec Ideal S1x1x2048x64 .f32) (x3 : Vec Ideal S1x1x2048x2048 .f32) :
    out0_A_4 (F := Ideal) c i arg2 harg2 arg3 harg3 arg4 harg4 arg5 harg5 arg6 harg6 x0 x1 x2 x3
      = attnBlk scoreK x0 x1 x2 x3 := by
  unfold out0_A_4
  rw [View.read_writes_eq_canon _ _ _ (cover0_A_4 c i arg2 harg2 arg3 harg3 arg4 harg4 arg5 harg5 arg6 harg6 x0 x1 x2 x3)]
  funext y
  -- the four stored chunks tile the block; it is enough that each is a block of the attention function
  refine View.canon_apply_of_pieces (attnBlk scoreK x0 x1 x2 x3) _ ?_ y (cover0_A_4 c i arg2 harg2 arg3 harg3 arg4 harg4 arg5 harg5 arg6 harg6 x0 x1 x2 x3 y)
  have hz : (![0, 0, 0, 0] : Fin 4 → ℕ) = fun _ => 0 := by
    funext a
    match a with
    | ⟨0, _⟩ => rfl
    | ⟨1, _⟩ => rfl
    | ⟨2, _⟩ => rfl
    | ⟨3, _⟩ => rfl
  unfold kernelRun0_A
  dsimp only
  sl_unfold_words
  intro p hp
  simp only [List.mem_cons, List.not_mem_nil, or_false] at hp
  rcases hp with rfl | rfl | rfl | rfl
  · -- rows 1536 … 2047
    intro x
    simp only [View.readAt_eq_ld, harg2.read_unread, harg3.read_unread, harg4.read_unread, harg5.read_unread,
      View.ld_unit_zero (S := S1x1x2048x64) hz]
    refine (congrFun (pay1_eq _ _ _ _ _) x).trans ?_
    exact piece_apply x0 x1 x2 x3 1536 (by decide) _ _ _ (fun r e h => q_rows_apply x0 1536 _ r e h)
      (fun r k h => m_rows_apply x3 1536 _ r k h) x
  · -- rows 1024 … 1535
    intro x
    simp only [View.readAt_eq_ld, harg2.read_unread, harg3.read_unread, harg4.read_unread, harg5.read_unread,
      View.ld_unit_zero (S := S1x1x2048x64) hz]
    refine (congrFun (pay7_eq _ _ _ _ _) x).trans ?_
    exact piece_apply x0 x1 x2 x3 1024 (by decide) _ _ _ (fun r e h => q_rows_apply x0 1024 _ r e h)
      (fun r k h => m_rows_apply x3 1024 _ r k h) x
  · -- rows 512 … 1023
    intro x
    simp only [View.readAt_eq_ld, harg2.read_unread, harg3.read_unread, harg4.read_unread, harg5.read_unread,
      View.ld_unit_zero (S := S1x1x2048x64) hz]
    refine (congrFun (pay6_eq _ _ _ _ _) x).trans ?_
    exact piece_apply x0 x1 x2 x3 512 (by decide) _ _ _ (fun r e h => q_rows_apply x0 512 _ r e h)
      (fun r k h => m_rows_apply x3 512 _ r k h) x
  · -- rows 0 … 511
    intro x
    simp only [View.readAt_eq_ld, harg2.read_unread, harg3.read_unread, harg4.read_unread, harg5.read_unread,
      View.ld_unit_zero (S := S1x1x2048x64) hz]
    refine (congrFun (pay5_pay4_eq _ _ _ _) x).trans ?_
    exact piece_apply x0 x1 x2 x3 0 (by decide) _ _ _ (fun r e h => q_rows_apply x0 0 _ r e h)
      (fun r k h => m_rows_apply x3 0 _ r k h) x

end Cert.AttnBlock

end
-- ==== Proof.AttnArray.lean ====
/-
  From blocks to the array. Grid point (b, h) reads block (b, h) of Q, K and V and block (b, 0) of the mask, and
  writes back block (b, h) of the result; the 32 blocks tile the result array. Every block is the restriction of
  one whole-array function, attention of the argument arrays, so the result array after the run is that function.
-/
import proofs.«423381_j53180285059620_3_alg».proof.Proof.Gen.KernelIdeal.Value
import proofs.«423381_j53180285059620_3_alg».proof.Proof.AttnBlock

set_option maxRecDepth 16384

noncomputable section

namespace Cert.AttnArray

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.AttnSpec

variable (m : (ℓ : Loc nD τ sig) → Buf (Elt Ideal) ℓ) (ρ : Dev nD → PrngReg)

/-- The kernel's result as one function of the argument arrays. -/
abbrev result (c : Dev nD) : S2x16x2048x64.Idx → EReal :=
  attnArr scoreK (m ((c : Thread nD τ).loc main_arg0)) (m ((c : Thread nD τ).loc main_arg1))
    (m ((c : Thread nD τ).loc main_arg2)) (m ((c : Thread nD τ).loc main_arg3))

/-- The query window's block index, decided over the 32 grid points: the result window's on the batch and head axes,
    zero on the row and column axes. -/
theorem index_q : ∀ t : Fin cfg0.N, win0_0.index t (0 : Fin 4) = win0_4.index t (0 : Fin 4)
    ∧ win0_0.index t (1 : Fin 4) = win0_4.index t (1 : Fin 4)
    ∧ win0_0.index t (2 : Fin 4) = 0 ∧ win0_0.index t (3 : Fin 4) = 0 :=
  (by decide +kernel : ∀ t : Fin grid0.N, _)

/-- The key window's block index: the same. -/
theorem index_k : ∀ t : Fin cfg0.N, win0_1.index t (0 : Fin 4) = win0_4.index t (0 : Fin 4)
    ∧ win0_1.index t (1 : Fin 4) = win0_4.index t (1 : Fin 4)
    ∧ win0_1.index t (2 : Fin 4) = 0 ∧ win0_1.index t (3 : Fin 4) = 0 :=
  (by decide +kernel : ∀ t : Fin grid0.N, _)

/-- The value window's block index: the same. -/
theorem index_v : ∀ t : Fin cfg0.N, win0_2.index t (0 : Fin 4) = win0_4.index t (0 : Fin 4)
    ∧ win0_2.index t (1 : Fin 4) = win0_4.index t (1 : Fin 4)
    ∧ win0_2.index t (2 : Fin 4) = 0 ∧ win0_2.index t (3 : Fin 4) = 0 :=
  (by decide +kernel : ∀ t : Fin grid0.N, _)

/-- The mask window's block index: the result window's on the batch axis, zero on the other three. -/
theorem index_mask : ∀ t : Fin cfg0.N, win0_3.index t (0 : Fin 4) = win0_4.index t (0 : Fin 4)
    ∧ win0_3.index t (1 : Fin 4) = 0 ∧ win0_3.index t (2 : Fin 4) = 0 ∧ win0_3.index t (3 : Fin 4) = 0 :=
  (by decide +kernel : ∀ t : Fin grid0.N, _)

/-- The result window's block index: a batch below 2, a head below 16, zero on the row and column axes. -/
theorem index_out : ∀ t : Fin cfg0.N, win0_4.index t (0 : Fin 4) < 2 ∧ win0_4.index t (1 : Fin 4) < 16
    ∧ win0_4.index t (2 : Fin 4) = 0 ∧ win0_4.index t (3 : Fin 4) = 0 :=
  (by decide +kernel : ∀ t : Fin grid0.N, _)

/-- Every (batch, head) pair is some grid point's block. -/
theorem index_onto : ∀ (q0 : Fin 2) (q1 : Fin 16), ∃ t : Fin cfg0.N, win0_4.index t = ![q0.val, q1.val, 0, 0] :=
  (by decide +kernel : ∀ (q0 : Fin 2) (q1 : Fin 16), ∃ t : Fin grid0.N, win0_4.index t = ![q0.val, q1.val, 0, 0])

/-- The query block of a grid point, read at a row and a column, is the query array at the point's batch and head. -/
theorem qblk_apply (c : Dev nD) (t : Fin cfg0.N) (b : Fin 2) (h : Fin 16)
    (hb : win0_4.index t (0 : Fin 4) = b.val) (hh : win0_4.index t (1 : Fin 4) = h.val) (r : Fin 2048) (e : Fin 64) :
    (iblk m c 0 t : Vec Ideal S1x1x2048x64 .f32) (ix4 (0 : Fin 1) (0 : Fin 1) r e)
      = (m ((c : Thread nD τ).loc main_arg0) : S2x16x2048x64.Idx → EReal) (ix4 b h r e) := by
  obtain ⟨e0, e1, e2, e3⟩ := index_q t
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * (0 : Fin 1).val = b.val; rw [e0, hb]; omega
  | ⟨1, _⟩ => show win0_0.index t (1 : Fin 4) * 1 + 1 * (0 : Fin 1).val = h.val; rw [e1, hh]; omega
  | ⟨2, _⟩ => show win0_0.index t (2 : Fin 4) * 2048 + 1 * r.val = r.val; rw [e2]; omega
  | ⟨3, _⟩ => show win0_0.index t (3 : Fin 4) * 64 + 1 * e.val = e.val; rw [e3]; omega

/-- The key block of a grid point, read at a row and a column, is the key array at the point's batch and head. -/
theorem kblk_apply (c : Dev nD) (t : Fin cfg0.N) (b : Fin 2) (h : Fin 16)
    (hb : win0_4.index t (0 : Fin 4) = b.val) (hh : win0_4.index t (1 : Fin 4) = h.val) (r : Fin 2048) (e : Fin 64) :
    (iblk m c 1 t : Vec Ideal S1x1x2048x64 .f32) (ix4 (0 : Fin 1) (0 : Fin 1) r e)
      = (m ((c : Thread nD τ).loc main_arg1) : S2x16x2048x64.Idx → EReal) (ix4 b h r e) := by
  obtain ⟨e0, e1, e2, e3⟩ := index_k t
  unfold iblk
  rw [View.read_apply]
  show V m c main_arg1 _ = m (c.tc.loc main_arg1) _
  unfold V
  congr 1
  funext a
  apply Fin.ext
  match a with
  | ⟨0, _⟩ => show win0_1.index t (0 : Fin 4) * 1 + 1 * (0 : Fin 1).val = b.val; rw [e0, hb]; omega
  | ⟨1, _⟩ => show win0_1.index t (1 : Fin 4) * 1 + 1 * (0 : Fin 1).val = h.val; rw [e1, hh]; omega
  | ⟨2, _⟩ => show win0_1.index t (2 : Fin 4) * 2048 + 1 * r.val = r.val; rw [e2]; omega
  | ⟨3, _⟩ => show win0_1.index t (3 : Fin 4) * 64 + 1 * e.val = e.val; rw [e3]; omega

/-- The value block of a grid point, read at a row and a column, is the value array at the point's batch and head. -/
theorem vblk_apply (c : Dev nD) (t : Fin cfg0.N) (b : Fin 2) (h : Fin 16)
    (hb : win0_4.index t (0 : Fin 4) = b.val) (hh : win0_4.index t (1 : Fin 4) = h.val) (r : Fin 2048) (e : Fin 64) :
    (iblk m c 2 t : Vec Ideal S1x1x2048x64 .f32) (ix4 (0 : Fin 1) (0 : Fin 1) r e)
      = (m ((c : Thread nD τ).loc main_arg2) : S2x16x2048x64.Idx → EReal) (ix4 b h r e) := by
  obtain ⟨e0, e1, e2, e3⟩ := index_v t
  unfold iblk
  rw [View.read_apply]
  show V m c main_arg2 _ = m (c.tc.loc main_arg2) _
  unfold V
  congr 1
  funext a
  apply Fin.ext
  match a with
  | ⟨0, _⟩ => show win0_2.index t (0 : Fin 4) * 1 + 1 * (0 : Fin 1).val = b.val; rw [e0, hb]; omega
  | ⟨1, _⟩ => show win0_2.index t (1 : Fin 4) * 1 + 1 * (0 : Fin 1).val = h.val; rw [e1, hh]; omega
  | ⟨2, _⟩ => show win0_2.index t (2 : Fin 4) * 2048 + 1 * r.val = r.val; rw [e2]; omega
  | ⟨3, _⟩ => show win0_2.index t (3 : Fin 4) * 64 + 1 * e.val = e.val; rw [e3]; omega

/-- The mask block of a grid point, read at a query row and a key row, is the mask array at the point's batch. -/
theorem mblk_apply (c : Dev nD) (t : Fin cfg0.N) (b : Fin 2)
    (hb : win0_4.index t (0 : Fin 4) = b.val) (r : Fin 2048) (k : Fin 2048) :
    (iblk m c 3 t : Vec Ideal S1x1x2048x2048 .f32) (ix4 (0 : Fin 1) (0 : Fin 1) r k)
      = (m ((c : Thread nD τ).loc main_arg3) : S2x1x2048x2048.Idx → EReal) (ix4 b (0 : Fin 1) r k) := by
  obtain ⟨e0, e1, e2, e3⟩ := index_mask t
  unfold iblk
  rw [View.read_apply]
  show V m c main_arg3 _ = m (c.tc.loc main_arg3) _
  unfold V
  congr 1
  funext a
  apply Fin.ext
  match a with
  | ⟨0, _⟩ => show win0_3.index t (0 : Fin 4) * 1 + 1 * (0 : Fin 1).val = b.val; rw [e0, hb]; omega
  | ⟨1, _⟩ => show win0_3.index t (1 : Fin 4) * 1 + 1 * (0 : Fin 1).val = (0 : Fin 1).val; rw [e1]; omega
  | ⟨2, _⟩ => show win0_3.index t (2 : Fin 4) * 2048 + 1 * r.val = r.val; rw [e2]; omega
  | ⟨3, _⟩ => show win0_3.index t (3 : Fin 4) * 2048 + 1 * k.val = k.val; rw [e3]; omega

/-- Attention of a grid point's four blocks, at a row and a column, is attention of the four arrays at the point's
    batch and head: every entry the block formula reads is the matching array entry. -/
theorem blk_attn (c : Dev nD) (t : Fin cfg0.N) (b : Fin 2) (h : Fin 16)
    (hb : win0_4.index t (0 : Fin 4) = b.val) (hh : win0_4.index t (1 : Fin 4) = h.val) (r : Fin 2048) (d : Fin 64) :
    attnBlk scoreK (iblk m c 0 t) (iblk m c 1 t) (iblk m c 2 t) (iblk m c 3 t) (ix4 (0 : Fin 1) (0 : Fin 1) r d)
      = attnAt scoreK (m ((c : Thread nD τ).loc main_arg0)) (m ((c : Thread nD τ).loc main_arg1))
          (m ((c : Thread nD τ).loc main_arg2)) (m ((c : Thread nD τ).loc main_arg3)) b h r d := by
  unfold attnBlk attnAt
  congr 1
  · funext kk
    congr 1
    · refine Finset.sum_congr rfl fun e _ => ?_
      exact congrArg₂ (· * ·) (qblk_apply m c t b h hb hh r e) (kblk_apply m c t b h hb hh kk e)
    · exact mblk_apply m c t b hb r kk
  · funext kk
    exact vblk_apply m c t b h hb hh kk d

/-- What a grid point writes back is its block of the result array. -/
theorem flushed_eq (c : Dev nD) (t : Fin cfg0.N) :
    (dats m 0 c).flushed 4 t = ((cfg0.win 4).blk t).view.read (Elt Ideal) (result m c) := by
  rw [Value.flushed4_A, Cert.AttnBlock.out_eq]
  obtain ⟨o0, o1, o2, o3⟩ := index_out t
  funext y
  show attnBlk scoreK (iblk m c 0 t) (iblk m c 1 t) (iblk m c 2 t) (iblk m c 3 t) (ix4 (0 : Fin 1) (0 : Fin 1) (y 2) (y 3))
    = result m c (((cfg0.win 4).blk t).view.emb y)
  have hy0 : (y 0).val < 1 := (y 0).isLt
  have hy1 : (y 1).val < 1 := (y 1).isLt
  have hemb : ((cfg0.win 4).blk t).view.emb y
      = ix4 (⟨win0_4.index t (0 : Fin 4), o0⟩ : Fin 2) (⟨win0_4.index t (1 : Fin 4), o1⟩ : Fin 16) (y 2) (y 3) := by
    funext a
    apply Fin.ext
    match a with
    | ⟨0, _⟩ => show win0_4.index t (0 : Fin 4) * 1 + 1 * (y 0).val = win0_4.index t (0 : Fin 4); omega
    | ⟨1, _⟩ => show win0_4.index t (1 : Fin 4) * 1 + 1 * (y 1).val = win0_4.index t (1 : Fin 4); omega
    | ⟨2, _⟩ => show win0_4.index t (2 : Fin 4) * 2048 + 1 * (y 2).val = (y 2).val; rw [o2]; omega
    | ⟨3, _⟩ => show win0_4.index t (3 : Fin 4) * 64 + 1 * (y 3).val = (y 3).val; rw [o3]; omega
  rw [hemb]
  exact blk_attn m c t _ _ rfl rfl (y 2) (y 3)

/-- An index of the result array is in a grid point's block iff each coordinate is in the block's range on its axis. -/
theorem mem_blk (t : Fin cfg0.N) (i : S2x16x2048x64.Idx) :
    i ∈ ((cfg0.win 4).blk t).view.set ↔ ∀ a : Fin 4, win0_4.index t a * S1x1x2048x64.size a ≤ (i a).val
      ∧ (i a).val < win0_4.index t a * S1x1x2048x64.size a + S1x1x2048x64.size a := by
  show i ∈ ((View.whole main_v0).slice (win0_4.rect t)).set ↔ _
  rw [View.set_slice_whole, Rect.mem_set_unit]
  exact Iff.rfl

/-- The 32 blocks cover the result array: an index lies in the block of the point whose (batch, head) are its first two
    coordinates, since a block holds all 2048 rows and all 64 columns. -/
theorem cover (i : S2x16x2048x64.Idx) :
    ∃ t : Fin cfg0.N, (cfg0.win 4).flush t = true ∧ i ∈ ((cfg0.win 4).blk t).view.set := by
  obtain ⟨t, ht⟩ := index_onto (i 0) (i 1)
  have q0 : win0_4.index t (0 : Fin 4) = (i 0).val := congrFun ht 0
  have q1 : win0_4.index t (1 : Fin 4) = (i 1).val := congrFun ht 1
  have q2 : win0_4.index t (2 : Fin 4) = 0 := congrFun ht 2
  have q3 : win0_4.index t (3 : Fin 4) = 0 := congrFun ht 3
  have hi2 : (i 2).val < 2048 := (i 2).isLt
  have hi3 : (i 3).val < 64 := (i 3).isLt
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 2048 ≤ (i 2).val ∧ (i 2).val < win0_4.index t (2 : Fin 4) * 2048 + 2048; omega
  | ⟨3, _⟩ => show win0_4.index t (3 : Fin 4) * 64 ≤ (i 3).val ∧ (i 3).val < win0_4.index t (3 : Fin 4) * 64 + 64; omega

/-- After the run the result array is attention of the argument arrays. -/
theorem final (c : Dev nD) : (dats m 0 c).arrAt 4 cfg0.N = result m c :=
  (dats m 0 c).arrAt_eq_of_cover 4 (result m c) (fun t _ => flushed_eq m c t) cover

/-- The kernel's run with its result named. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.AttnArray

end
-- ==== Proof.AttnRef.lean ====
/-
  The reference, read at an index: its last stage is attention of the argument arrays with the reference's own
  form of the score. The row maximum it takes is a fold of `max` from `-∞`, once more joined with `-∞`, which
  changes nothing; its row sum starts from `0`.
-/
import proofs.«423381_j53180285059620_3_alg».proof.Proof.Gen.ReferenceIdeal.Read
import proofs.«423381_j53180285059620_3_alg».proof.Proof.AttnSpec

noncomputable section

namespace Cert.AttnRef

open Cert.ReferenceIdeal Cert.ReferenceIdeal.Gen Cert.ReferenceIdeal.Read Idealize.ShloMosaic Idealize.ShloMosaic.ValueIdx Cert.AttnSpec

/-- The score stage at an entry: the dot product of query row `q` and key row `k` over `sqrt 64`, less `1e9` times the mask entry. -/
theorem v7_at (x0 x1 : (⟨S2x16x2048x64, .f32⟩ : BufTy).Contents (Elt Ideal)) (x3 : (⟨S2x1x2048x2048, .f32⟩ : BufTy).Contents (Elt Ideal))
    (b : Fin 2) (h : Fin 16) (q k : Fin 2048) :
    val_main_v7 x0 x1 x3 (ix4 b h q k)
      = scoreR (∑ e : Fin 64, x0 (ix4 b h q e) * x1 (ix4 b h k e)) (x3 (ix4 b (0 : Fin 1) q k)) := by
  unfold scoreR
  rw [val_main_v7_apply, val_main_v3_apply, val_main_v0_apply, val_main_v2_apply, val_main_v1_apply, val_main_cst_apply,
    val_main_v6_apply, val_main_v5_apply, val_main_v4_apply, val_main_cst_0_apply]
  have e1 : ∀ e : Fin 64, lidx_main_v0 (ix4 b h q k) e = ix4 b h q e := fun e => funext fun a => Fin.ext (by
    match a with | ⟨0, _⟩ => rfl | ⟨1, _⟩ => rfl | ⟨2, _⟩ => rfl | ⟨3, _⟩ => rfl)
  have e2 : ∀ e : Fin 64, ridx_main_v0 (ix4 b h q k) e = ix4 b h k e := fun e => funext fun a => Fin.ext (by
    match a with | ⟨0, _⟩ => rfl | ⟨1, _⟩ => rfl | ⟨2, _⟩ => rfl | ⟨3, _⟩ => rfl)
  have e3 : idx_main_v6 (ix4 b h q k) = ix4 b (0 : Fin 1) q k := funext fun a => Fin.ext (by
    match a with | ⟨0, _⟩ => rfl | ⟨1, _⟩ => rfl | ⟨2, _⟩ => rfl | ⟨3, _⟩ => rfl)
  simp only [e1, e2, e3, Ideal.hostDivf_def, Ideal.hostUnary_sqrt_def, Ideal.mulf_def, Ideal.subf_def, Ideal.ofBits_def]

/-- The index over `(b, h, q)` with coordinate `k` put back on the last axis is `(b, h, q, k)`. -/
theorem lift_at (hR : S2x16x2048x2048.Reduces [3] S2x16x2048) (b : Fin 2) (h : Fin 16) (q : Fin 2048)
    (k : Fin (S2x16x2048x2048.size 3)) :
    hR.lift (ix3 b h q) k = ix4 b h q (⟨k.val, k.isLt⟩ : Fin 2048) := by
  funext c
  apply Fin.ext
  match c with | ⟨0, _⟩ => rfl | ⟨1, _⟩ => rfl | ⟨2, _⟩ => rfl | ⟨3, _⟩ => rfl

/-- The row maximum stage at `(b, h, q)`: the maximum of that row of scores, from `-∞`. -/
theorem v10_at (x0 x1 : (⟨S2x16x2048x64, .f32⟩ : BufTy).Contents (Elt Ideal)) (x3 : (⟨S2x1x2048x2048, .f32⟩ : BufTy).Contents (Elt Ideal))
    (b : Fin 2) (h : Fin 16) (q : Fin 2048) :
    val_main_v10 x0 x1 x3 (ix3 b h q)
      = rowMax (fun k => scoreR (∑ e : Fin 64, x0 (ix4 b h q e) * x1 (ix4 b h k e)) (x3 (ix4 b (0 : Fin 1) q k))) := by
  have hR : S2x16x2048x2048.Reduces [3] S2x16x2048 := by decide
  rw [val_main_v10_apply, val_main_v9_apply, val_main_cst_2_apply]
  unfold val_main_v8
  rw [Host.reduce_eq_fold_single FloatOps.maximumf _ _ reducesTo_S2x16x2048x2048_S2x16x2048_d3 hR h_S_, val_main_cst_1_apply]
  unfold rowMax
  refine (max_eq_right (by rw [Ideal.ofBits_def, Cert.AttnLiterals.lit_neg_inf]; exact bot_le)).trans ?_
  have hf : (val_main_v7 x0 x1 x3 ∘ hR.lift (ix3 b h q))
      = fun k : Fin 2048 => scoreR (∑ e : Fin 64, x0 (ix4 b h q e) * x1 (ix4 b h k e)) (x3 (ix4 b (0 : Fin 1) q k)) :=
    funext fun k => by rw [Function.comp_apply, lift_at, v7_at]; rfl
  exact congrArg (fun f => Finset.fold max (Ideal.ofBits .f32 0xFF800000#32) f (Finset.univ : Finset (Fin 2048))) hf

/-- The exponential stage at an entry: `exp` of the score less its row's maximum. -/
theorem v14_at (x0 x1 : (⟨S2x16x2048x64, .f32⟩ : BufTy).Contents (Elt Ideal)) (x3 : (⟨S2x1x2048x2048, .f32⟩ : BufTy).Contents (Elt Ideal))
    (b : Fin 2) (h : Fin 16) (q k : Fin 2048) :
    val_main_v14 x0 x1 x3 (ix4 b h q k)
      = Ideal.exp (scoreR (∑ e : Fin 64, x0 (ix4 b h q e) * x1 (ix4 b h k e)) (x3 (ix4 b (0 : Fin 1) q k))
          - rowMax (fun k => scoreR (∑ e : Fin 64, x0 (ix4 b h q e) * x1 (ix4 b h k e)) (x3 (ix4 b (0 : Fin 1) q k)))) := by
  have e1 : idx_main_v11 (idx_main_v12 (ix4 b h q k)) = ix3 b h q := funext fun a => Fin.ext (by
    match a with | ⟨0, _⟩ => rfl | ⟨1, _⟩ => rfl | ⟨2, _⟩ => rfl)
  rw [val_main_v14_apply, val_main_v13_apply, val_main_v12_apply, val_main_v11_apply, e1, v10_at, v7_at,
    Ideal.hostUnary_exp_def, Ideal.subf_def]

/-- The row sum stage at `(b, h, q)`: the sum of that row's exponentials, from `0`. -/
theorem v15_at (x0 x1 : (⟨S2x16x2048x64, .f32⟩ : BufTy).Contents (Elt Ideal)) (x3 : (⟨S2x1x2048x2048, .f32⟩ : BufTy).Contents (Elt Ideal))
    (b : Fin 2) (h : Fin 16) (q : Fin 2048) :
    val_main_v15 x0 x1 x3 (ix3 b h q)
      = ∑ k' : Fin 2048, Ideal.exp (scoreR (∑ e : Fin 64, x0 (ix4 b h q e) * x1 (ix4 b h k' e)) (x3 (ix4 b (0 : Fin 1) q k'))
          - rowMax (fun k => scoreR (∑ e : Fin 64, x0 (ix4 b h q e) * x1 (ix4 b h k e)) (x3 (ix4 b (0 : Fin 1) q k)))) := by
  rw [val_main_v15_apply, val_main_cst_3_apply, Ideal.ofBits_def, Ideal.ofBits_zero_f32, zero_add]
  refine Finset.sum_congr rfl fun k' _ => ?_
  have e1 : idx_main_v15 (ix3 b h q) k' = ix4 b h q k' := funext fun a => Fin.ext (by
    match a with | ⟨0, _⟩ => rfl | ⟨1, _⟩ => rfl | ⟨2, _⟩ => rfl | ⟨3, _⟩ => rfl)
  rw [e1, v14_at]

/-- The weight stage at an entry: the exponential over its row's sum. -/
theorem v18_at (x0 x1 : (⟨S2x16x2048x64, .f32⟩ : BufTy).Contents (Elt Ideal)) (x3 : (⟨S2x1x2048x2048, .f32⟩ : BufTy).Contents (Elt Ideal))
    (b : Fin 2) (h : Fin 16) (q k : Fin 2048) :
    val_main_v18 x0 x1 x3 (ix4 b h q k)
      = Ideal.div
          (Ideal.exp (scoreR (∑ e : Fin 64, x0 (ix4 b h q e) * x1 (ix4 b h k e)) (x3 (ix4 b (0 : Fin 1) q k))
            - rowMax (fun k => scoreR (∑ e : Fin 64, x0 (ix4 b h q e) * x1 (ix4 b h k e)) (x3 (ix4 b (0 : Fin 1) q k)))))
          (∑ k' : Fin 2048, Ideal.exp (scoreR (∑ e : Fin 64, x0 (ix4 b h q e) * x1 (ix4 b h k' e)) (x3 (ix4 b (0 : Fin 1) q k'))
            - rowMax (fun k => scoreR (∑ e : Fin 64, x0 (ix4 b h q e) * x1 (ix4 b h k e)) (x3 (ix4 b (0 : Fin 1) q k))))) := by
  have e1 : idx_main_v16 (idx_main_v17 (ix4 b h q k)) = ix3 b h q := funext fun a => Fin.ext (by
    match a with | ⟨0, _⟩ => rfl | ⟨1, _⟩ => rfl | ⟨2, _⟩ => rfl)
  rw [val_main_v18_apply, val_main_v17_apply, val_main_v16_apply, e1, v14_at, v15_at, Ideal.hostDivf_def]

/-- The reference's result stage is attention of its arguments, with the reference's score. -/
theorem ref_eq (x0 x1 x2 : (⟨S2x16x2048x64, .f32⟩ : BufTy).Contents (Elt Ideal)) (x3 : (⟨S2x1x2048x2048, .f32⟩ : BufTy).Contents (Elt Ideal)) :
    val_main_v19 x0 x1 x2 x3 = attnArr scoreR x0 x1 x2 x3 := by
  funext i
  obtain ⟨b, h, q, d, rfl⟩ : ∃ (b : Fin 2) (h : Fin 16) (q : Fin 2048) (d : Fin 64), i = ix4 b h q d :=
    ⟨i 0, i 1, i 2, i 3, eq_ix4 i⟩
  rw [attnArr_apply, val_main_v19_apply]
  unfold attnAt attend
  refine Finset.sum_congr rfl fun k _ => ?_
  have el : lidx_main_v19 (ix4 b h q d) k = ix4 b h q k := funext fun a => Fin.ext (by
    match a with | ⟨0, _⟩ => rfl | ⟨1, _⟩ => rfl | ⟨2, _⟩ => rfl | ⟨3, _⟩ => rfl)
  have er : ridx_main_v19 (ix4 b h q d) k = ix4 b h k d := funext fun a => Fin.ext (by
    match a with | ⟨0, _⟩ => rfl | ⟨1, _⟩ => rfl | ⟨2, _⟩ => rfl | ⟨3, _⟩ => rfl)
  rw [el, er, v18_at]

end Cert.AttnRef

end
-- ==== Proof.AttnMask.lean ====
/-
  The precondition read back: its last conjunct says that every entry of the mask equals `0.0` or equals `1.0`;
  as extended reals, each entry is `0` or `1`.
-/
import proofs.«423381_j53180285059620_3_alg».proof.Proof.Gen.Pre_finite_inputs
import proofs.«423381_j53180285059620_3_alg».proof.Proof.AttnLiterals
import Idealize.ShloMosaic.Lib.ReduceAll
import Idealize.ShloMosaic.Lib.ValueIdx
import Idealize.ShloMosaic.PureOps.Ideal.Laws

noncomputable section

namespace Cert.AttnMask

open Cert.Pre_finite_inputs Idealize.ShloMosaic Idealize.ShloMosaic.ValueIdx

/-- The rank-0 shape has one index. -/
instance : Subsingleton S_.Idx := ⟨fun a b => funext fun d => d.elim0⟩

/-- A comparison for equality of two extended reals that came out `1` had equal operands. -/
theorem eq_of_cmp_oeq {x y : EReal} (h : Ideal.cmp .oeq x y = 1#1) : x = y := by
  by_contra hne
  have : Ideal.cmp .oeq x y = 0#1 := by simp [Ideal.cmp, hne]
  rw [this] at h
  exact absurd h (by decide)

/-- Under the precondition every mask entry is `0` or `1`. -/
theorem mask_zero_or_one (a0 a1 a2 : FVec Ideal S2x16x2048x64 .f32) (a3 : FVec Ideal S2x1x2048x2048 .f32)
    (h : Cert.Pre_finite_inputs.fn (F := Ideal) a0 a1 a2 a3 = fun _ => 1#1) (i : S2x1x2048x2048.Idx) :
    a3 i = 0 ∨ a3 i = 1 := by
  have h0 := congrFun h ValueIdx.ix0
  dsimp only [fn, fn_part1] at h0
  -- the whole predicate is a conjunction whose last conjunct is the reduction over the mask
  have h1 := (IntOp.andi_eq_one.1 h0).2
  -- a reduction by `and` that is one had a one at every entry
  have h2 := Host.reduce_andi_all _ _ _ _ _ h1 i
  -- the entry's word is the disjunction of two comparisons for equality
  rcases IntOp.ori_eq_one.1 h2 with h3 | h3
  · left
    have h4 : Ideal.cmp .oeq (a3 i) (Ideal.ofBits .f32 0x00000000#32) = 1#1 := h3
    rw [eq_of_cmp_oeq h4, Ideal.ofBits_zero_f32]
  · right
    have h4 : Ideal.cmp .oeq (a3 i) (Ideal.ofBits .f32 0x3F800000#32) = 1#1 := h3
    rw [eq_of_cmp_oeq h4, Cert.AttnLiterals.lit_one]

end Cert.AttnMask

end
-- ==== Proof.lean ====
/-
  Masked scaled dot-product attention: a kernel that walks the 2048 query rows of each (batch, head) in four
  chunks of 512, against jnp's whole-array reference.

  Both programs compute, for batch `b`, head `h`, query row `q`, column `d`,
      ∑ k, exp (s k − max s) / (∑ k', exp (s k' − max s)) · V[b,h,k,d],     s k = score (∑ e, Q[b,h,q,e] · K[b,h,k,e]) (M[b,0,q,k]),
  the maximum from −∞ (Proof/AttnSpec.lean). They differ in `score`: the kernel scales by `0.125` and subtracts `1e9`
  where the mask entry is not zero; the reference divides by `sqrt 64` and subtracts `1e9` times the mask entry.
  Since `sqrt 64 = 8`, the two agree exactly when the mask entry is `0` or `1`, which the precondition states of every
  entry (Proof/AttnMask.lean reads it back). The changes of float format inside the kernel are the identity on the
  extended reals, a matrix product into a zero accumulator is the plain sum, and chunking the rows changes nothing:
  every row's result depends on that row alone.

  The kernel's side: one chunk as a function (Proof/AttnChunk.lean), the four stored chunks as one block function
  (Proof/AttnBlock.lean), the 32 blocks as the whole array (Proof/AttnArray.lean). The reference's side: its
  stages read at an index (Proof/AttnRef.lean). The three frames are the programs' runs with the results dropped,
  and the kernel's idealization rewrote nothing.
-/
import proofs.«423381_j53180285059620_3_alg».proof.Defs
import proofs.«423381_j53180285059620_3_alg».proof.Proof.Gen.Kernel
import proofs.«423381_j53180285059620_3_alg».proof.Proof.Gen.Kernel.Skeleton
import proofs.«423381_j53180285059620_3_alg».proof.Proof.Gen.Kernel.Launch
import proofs.«423381_j53180285059620_3_alg».proof.Proof.Gen.Kernel.Points
import proofs.«423381_j53180285059620_3_alg».proof.Proof.Gen.Kernel.Frame
import proofs.«423381_j53180285059620_3_alg».proof.Proof.Gen.KernelIdeal
import proofs.«423381_j53180285059620_3_alg».proof.Proof.Gen.KernelIdeal.Skeleton
import proofs.«423381_j53180285059620_3_alg».proof.Proof.Gen.KernelIdeal.Launch
import proofs.«423381_j53180285059620_3_alg».proof.Proof.Gen.KernelIdeal.Points
import proofs.«423381_j53180285059620_3_alg».proof.Proof.Gen.KernelIdeal.Frame
import proofs.«423381_j53180285059620_3_alg».proof.Proof.Gen.ReferenceIdeal
import proofs.«423381_j53180285059620_3_alg».proof.Proof.Gen.Pre_finite_inputs
import proofs.«423381_j53180285059620_3_alg».proof.Proof.Gen.KernelIdeal.Value
import proofs.«423381_j53180285059620_3_alg».proof.Proof.Gen.ReferenceIdeal.Run
import proofs.«423381_j53180285059620_3_alg».proof.Proof.Gen.ReferenceIdeal.Read
import proofs.«423381_j53180285059620_3_alg».proof.Proof.AttnArray
import proofs.«423381_j53180285059620_3_alg».proof.Proof.AttnRef
import proofs.«423381_j53180285059620_3_alg».proof.Proof.AttnMask
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the four arguments, under a mask of zeros and ones, the kernel's result array and the
    reference's are the same attention array: the kernel's with its own score form, the reference's with the reference's,
    and the two forms agree on every mask entry. -/
theorem algebraic : Cert.algebraic_KernelIdeal_ReferenceIdeal := by
  intro m ρ m' ρ' hpre hagree
  refine ⟨fun c => Cert.AttnArray.result m c, Cert.AttnArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.AttnRef.ref_eq,
    (hagree c).1, (hagree c).2.1, (hagree c).2.2.1, (hagree c).2.2.2]
  exact (Cert.AttnSpec.attnArr_scoreK_eq_scoreR _ _ _ _
    (Cert.AttnMask.mask_zero_or_one _ _ _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
